-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x11264 : S_.BroadcastsInDim S2048x11264 (![] : Fin 0 → Fin S2048x11264.rank)
  reducesTo_S2048x11264_S_d0_1 : S2048x11264.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn {F : FTy → Type} [FloatOps F] (main_arg0 : FVec F S8192x2048 .f32) (main_arg1 : FVec F S2048x11264 .f32) (main_arg2 : FVec F S5632x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_c_1 : IVec S_ 1 := constantI S_ 1 1#1
  let main_v7 : IVec S_ 1 := (fun x v => Host.reduce IntOp.andi x v reducesTo_S2048x11264_S_d0_1 h_S_) main_v6 main_c_1
  let main_v8 : IVec S_ 1 := andi main_v3 main_v7
  let main_v9 : FVec F S5632x2048 .f32 := Host.absf main_arg2
  let main_cst_2 : FVec F S_ .f32 := constant S_ .f32 0x7F800000#32
  let main_v10 : FVec F S5632x2048 .f32 := broadcastInDim S5632x2048 ![] bcast_S_S5632x2048 main_cst_2
  let main_v11 : IVec S5632x2048 1 := cmpf .olt main_v9 main_v10
  let main_c_3 : IVec S_ 1 := constantI S_ 1 1#1
  let main_v12 : IVec S_ 1 := (fun x v => Host.reduce IntOp.andi x v reducesTo_S5632x2048_S_d0_1 h_S_) main_v11 main_c_3
  let main_v13 : IVec S_ 1 := andi main_v8 main_v12
  main_v13
-- ==== Kernel.lean ====
abbrev S8192x2048 : Shape := ⟨2, ![8192, 2048]⟩
abbrev S2048x11264 : Shape := ⟨2, ![2048, 11264]⟩
abbrev S5632x2048 : Shape := ⟨2, ![5632, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S2048x11264, .bf16⟩
  | .hbm, ⟨5, _⟩ => ⟨S5632x2048, .bf16⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S512x2048_S2048x512_S512x512_1_0_0_1_n_n_wf : DotDims.WF S512x2048 S2048x512 S512x512 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x11264.size a
  hwx0_1 : ∀ i : grid0.Coords, EltTy.bits .bf16 = 32 ∨ (Rect.block (s := S2048x11264) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x11264.size a
  hwx0_2 : ∀ i : grid0.Coords, EltTy.bits .bf16 = 32 ∨ (Rect.block (s := S2048x11264) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S5632x2048.size a
  hwx0_3 : ∀ i : grid0.Coords, EltTy.bits .bf16 = 32 ∨ (Rect.block (s := S5632x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S5632x2048, .f32⟩
  | .hbm, ⟨3, _⟩ => ⟨S8192x11264, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8192x11264_S8192x5632_0_0 : S8192x11264.Slices ![0, 0] S8192x5632
  slices_S8192x11264_S8192x5632_0_5632 : S8192x11264.Slices ![0, 5632] S8192x5632
  bcast_S_S8192x5632 : S_.BroadcastsInDim S8192x5632 (![] : Fin 0 → Fin S8192x5632.rank)
  dot_S8192x2048_S2048x11264_S8192x11264_1_0_0_1_n_n_wf : DotDims.WF S8192x2048 S2048x11264 S8192x11264 [1] [0] [0] [1] [] []
  dot_S8192x5632_S5632x2048_S8192x2048_1_0_0_1_n_n_wf : DotDims.WF S8192x5632 S5632x2048 S8192x2048 [1] [0] [0] [1] [] []

variable [Facts₀]

def dot_S8192x2048_S2048x11264_S8192x11264_1_0_0_1_n_n : DotDims S8192x2048 S2048x11264 S8192x11264 where
  lhsContracting := [1]
  rhsContracting := [0]
  lhsNonContracting := [0]
  rhsNonContracting := [1]
  lhsBatch := []
  rhsBatch := []
  wf := dot_S8192x2048_S2048x11264_S8192x11264_1_0_0_1_n_n_wf
def dot_S8192x5632_S5632x2048_S8192x2048_1_0_0_1_n_n : DotDims S8192x5632 S5632x2048 S8192x2048 where
  lhsContracting := [1]
  rhsContracting := [0]
  lhsNonContracting := [0]
  rhsNonContracting := [1]
  lhsBatch := []
  rhsBatch := []
  wf := dot_S8192x5632_S5632x2048_S8192x2048_1_0_0_1_n_n_wf

class Facts : Prop extends Facts₀ where

variable [Facts]
-- ==== Proof.LibSharedFrame.lean ====
/-
  The frame run of a one-region TensorCore program whose body carries a scratch buffer between grid
  points, for a pipeline whose INPUT windows may read one array through several windows.

  When two windows stage blocks of the same array, the array's buffer cannot be handed to each of
  them at the full share.  The launch instead takes, in place of "every window's array is held
  whole", an entailment `hsplit`: how the distinct buffers behind the windows' arrays, each whole at
  the region-entry contents, are dealt to the windows at the shares the proof data name.  Everything
  else is as for distinct arrays: the class invariant (the scoped rest and the generator register)
  is handed to the data's invariant before the first point and taken back after the last, every
  other unscoped buffer bypasses the region, and the conclusion is the frame post: every window's
  array at what the write-backs leave, every bypassing buffer at its region-entry contents.
-/
import Idealize.ShloMosaic.Lib.Pipeline.Frame

noncomputable section

namespace Idealize.ShloMosaic.Pipeline.Shared

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.TcCoe Idealize.ShloMosaic.Pipeline Idealize.ShloMosaic.Rounds

variable {nD : Nat} {τ : Topo} {sig : RefSig} {Val : EltTy → Type}
variable {Λ₀ : SL.Sem.Labels} {P : Type} [Fintype P] [DecidableEq P] [∀ e, Nonempty (Val e)]

/-- THE FRAME RUN with a tracking invariant, the windows' arrays not assumed distinct. -/
theorem θ_run_frame_track_shared (cfgs : P → Cfg sig Λ₀)
    (dats : (p : P) → (c : Dev nD) → Dat τ Val Unit ℕ (UR sig nD τ) ℕ (cfgs p) c) (p : P)
    (hcell : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c)
        : sProp (MT nD τ sig Unit Val ℕ (UR sig nD τ) ℕ)) ⊢ (dats p c).arrays ((dats p c).arrAt · 0))
    (hin : ∀ c, ΦA (cfgs p).spec c ⊢ (dats p c).Φ 0)
    (hout : ∀ c, (dats p c).Φ (Fin.last (cfgs p).N) ⊢ ΦA (cfgs p).spec c) :
    θ_run (Pipeline.defs (fun q => Cfg.toPCfg (Val := Val) (cfgs q)) defs₀) (onTc main) (s₀ m g) (FramePost cfgs dats p V) := by
  classical
  -- The launch: the pipeline's ghost state is the whole user algebra, the kernel has no semaphore and no
  -- prefetched table of its own; the buffers behind the windows' arrays are dealt to the windows by `hsplit`.
  refine Pipeline.θ_run_region_pf (fun q => (cfgs q).toPCfg (Val := Val)) (fun q => (cfgs q).toPCfg_adm) dats () hcell p hw
    (OwnSemFacts.none (cfgs p).spec) (PreFacts.none _) emb₁ defs₀ 𝒱₀ m g main hbody hne harr hstage howed
    (fun _ => BI.emp) (initOf (cells cfgs hcell) (launchToks cfgs hcell)) ?hu V hmain hsplit (fun _ k => k.elim0)
    (fun c => iprop(∃ r, prngReg c r)) (fun c => iprop(∃ r, prngReg c r))
    (fun c => unscopedRest (Ix := Unit) (Name := ℕ) (U := UR sig nD τ) (Lvl := ℕ) (cfgs p).spec c (V c))
    ?hX ?hin ?hout
    (fun c s => ∀ b ∈ restRefs sig (cfgs p).spec, s.mem ((c.tc : Thread nD τ).loc b) = V c b)
    ?hY ?hQ
  case hu =>
    -- owning the launch element of the user algebra is owning it through the whole-algebra embedding
    iintro Hu
    imodintro
    isplitl [Hu]
    · iapply (show (ownU _ : sProp (MT nD τ sig Unit Val ℕ (UR sig nD τ) ℕ))
          ⊢ BI.own (emb₁ (initOf (cells cfgs hcell) (launchToks cfgs hcell))) from .rfl)
      iexact Hu
    · rw [BI.bigSep_emp_const]; iempintro
  case hX =>
    -- of what the launch offers, the generator register goes to the invariant and the bypassing buffers wait
    intro c
    rw [unscopedRestP_none]
    iintro ⟨HU, -, -, -, Hp, -⟩
    imodintro
    isplitl [Hp]
    · iexists _; iexact Hp
    · iexact HU
  case hin =>
    -- the register and the scoped rest are the class invariant, which yields the data's at point 0
    intro c
    refine (show _ ⊢ ΦA (cfgs p).spec c from ?_).trans (hin c)
    unfold ΦA
    iintro ⟨Hp, -, Hr⟩
    isplitl [Hr] <;> iassumption
  case hout =>
    -- after the last point the data's invariant yields the class invariant back
    intro c
    refine (hout c).trans ?_
    rw [ownSems0_none]
    unfold ΦA
    iintro ⟨Hr, Hp⟩
    isplitl [Hp]
    · iexact Hp
    isplitr
    · iempintro
    · iexact Hr
  case hY =>
    -- every bypassing buffer is held whole at its region-entry contents, so the final memory holds them
    intro c s'
    iintro ⟨-, HU, HSI⟩
    unfold unscopedRest
    imodintro
    iapply (pointsTo_read_all (restRefs sig (cfgs p).spec) (fun b => (c.tc : Thread nD τ).loc b) (V c) s')
    isplitl [HU] <;> iassumption
  case hQ =>
    exact fun s h c => ⟨(h c).1, (h c).2.2⟩

end Idealize.ShloMosaic.Pipeline.Shared

end
-- ==== Proof.KI.Setup.lean ====
/-
  What the three runs of the kernel body and the frame share.

  The program converts its three arguments to bf16 on the host and then launches one pipelined
  kernel over a 16 × 11 grid (176 points in row-major order: point `t` is token tile `t / 11`,
  reduction step `t % 11`).  Here: the buffers' contents when the region is entered, each window's
  block at a point, what each input's staging buffer holds when the body runs, the two conditions the
  body branches on (the reset at reduction step 0, the write to the output at step 10) decided over
  the grid, where the output window is idle, and the names of the staging memrefs the body is
  called with.
-/
import proofs.«181866_j24970939859025_1_alg».proof.Proof.Gen.KernelIdeal.Launch
import proofs.«181866_j24970939859025_1_alg».proof.Proof.Gen.KernelIdeal.Skeleton
import proofs.«181866_j24970939859025_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The buffers of core `c` when the region is entered: the launch contents after the three
    host conversions. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the host conversions, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No conversion writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block whenever the body runs, fetched at that
    point or not: the token tile is refetched only when the tile index moves (every eleventh point) and
    the body leaves it in place in between; the weight blocks are fetched at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The three arguments are no window's array (the windows stage their bf16 copies and the result), so
    each bypasses the region and ends as the region found it, which is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩) h

/-! ## The body's two conditions -/

/-- The reset's condition: the reduction step is 0. -/
abbrev condR (i : grid0.Coords) : Prop := (Scalar.cmpi .ne (Scalar.extui (Scalar.cmpi .eq (BitVec.ofNat 32 (i 1).val) 0#32)) 0#32) = 1#1
theorem hcondR : ∀ t : Fin cfg0.N, condR (grid0.coords t) ↔ t.val % 11 = 0 :=
  (by decide +kernel : ∀ t : Fin grid0.N, condR (grid0.coords t) ↔ t.val % 11 = 0)

/-- The output write's condition: the reduction step is the last, 10. -/
abbrev condW (i : grid0.Coords) : Prop := k0_cond2 i = 1#1
theorem hcondW : ∀ t : Fin cfg0.N, condW (grid0.coords t) ↔ t.val % 11 = 10 :=
  (by decide +kernel : ∀ t : Fin grid0.N, condW (grid0.coords t) ↔ t.val % 11 = 10)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last reduction step the body stores nothing into the output window, -/
theorem idleAt0_4 : ∀ t : Fin cfg0.N, ¬condW (grid0.coords t) → cfg0.idle 4 (grid0.coords t) = true := by decide +kernel
/-- and the pipeline does not write its block back there; -/
theorem noFlush0_4 : ∀ t : Fin cfg0.N, ¬condW (grid0.coords t) → (cfg0.win 4).flush t = false := by decide +kernel
/-- at the last reduction step it is live. -/
theorem liveAt0_4 : ∀ t : Fin cfg0.N, condW (grid0.coords t) → cfg0.idle 4 (grid0.coords t) = false := by decide +kernel

/-! ## The memrefs the body is called with -/

abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x2048 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM : Memref sig .tc .vmem S512x2048 .f32 := Memref.whole cc0_scratch0
/-- The views through which the accumulator's and the output buffer's contents are stated. -/
abbrev VS : View sig .tc .vmem S512x2048 .f32 := scM.view
abbrev VO : View sig .tc .vmem S512x2048 .f32 := (Memref.whole cc0_stg4_0 : Memref sig .tc .vmem S512x2048 .f32).view

/-- The class invariant with the accumulator as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KI.RunA.lean ====
/-
  The kernel body at a point where the reduction starts (step 0) and the output is not yet written:
  it stores zeros over the whole accumulator, whatever it held, then adds this step's product to it.
  On whole staging memrefs with the inputs at given contents the body runs to its end, leaves the
  inputs and the output buffer as it found them, and leaves the accumulator with the pieces its two
  stores wrote: those pieces are what this definition names.
-/
import proofs.«181866_j24970939859025_1_alg».proof.Proof.KI.Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunA (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : condR i) (hcW : ¬condW i)
    (x0 : Vec F S512x2048 .bf16) (x1 : Vec F S2048x512 .bf16) (x2 : Vec F S2048x512 .bf16) (x3 : Vec F S512x2048 .bf16) :
    { LS : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xo E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hcR | exact hcW)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.RunB.lean ====
/-
  The kernel body at a middle reduction step (neither the first nor the last): it adds this step's
  product to the accumulator, which holds what the step before left, and stores nothing else.
-/
import proofs.«181866_j24970939859025_1_alg».proof.Proof.KI.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunB (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : ¬condW i)
    (x0 : Vec F S512x2048 .bf16) (x1 : Vec F S2048x512 .bf16) (x2 : Vec F S2048x512 .bf16) (x3 : Vec F S512x2048 .bf16) (xs : Vec F S512x2048 .f32) :
    { LS : List (View.Piece (Elt F) S512x2048 .f32) //
      ∀ (xo : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, fun xo E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hcR | exact hcW)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.RunC.lean ====
/-
  The kernel body at the last reduction step: it adds this step's product to the accumulator and then
  copies the accumulator over the whole output buffer, whatever that held.
-/
import proofs.«181866_j24970939859025_1_alg».proof.Proof.KI.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRunC (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : condW i)
    (x0 : Vec F S512x2048 .bf16) (x1 : Vec F S2048x512 .bf16) (x2 : Vec F S2048x512 .bf16) (x3 : Vec F S512x2048 .bf16) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__moe_kernel i arg2 harg2 arg3 harg3 arg4 harg4 arg5 harg5 arg6 harg6 arg7 harg7) K } := by
  refine ⟨?_, ?_, fun E K => ?run⟩
  case run =>
    simp only [cc0__moe_kernel_eq_skeleton]; unfold cc0__moe_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hcR | exact hcW)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KI.Data.lean ====
/-
  The proof data of the pipelined kernel and its body obligation.

  What the accumulator holds after each grid point is defined by recursion on the point: at a
  reduction step 0 what the first case's stores leave (zeros, then the step's product added), at any
  other step what the middle or the last case's store leaves over what the point before left.  The
  region's invariant carries the accumulator at exactly that between points; the output window's
  buffer is touched only at a last reduction step, where it receives the accumulator and is written
  back.  The stacked weight's bf16 copy is read through two windows, each holding half its share.
-/
import proofs.«181866_j24970939859025_1_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first case's two stores cover the accumulator. -/
theorem scoverA (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : condR i) (hcW : ¬condW i)
    (x0 : Vec F S512x2048 .bf16) (x1 : Vec F S2048x512 .bf16) (x2 : Vec F S2048x512 .bf16) (x3 : Vec F S512x2048 .bf16) (y : S512x2048.Idx) :
    ∃ pc ∈ (kernelRunA c i arg2 harg2 arg3 harg3 arg4 harg4 arg5 harg5 arg6 harg6 arg7 harg7 hcR hcW x0 x1 x2 x3).1, y ∈ pc.1.set :=
  View.cover_of_tiledL (kernelRunA c i arg2 harg2 arg3 harg3 arg4 harg4 arg5 harg5 arg6 harg6 arg7 harg7 hcR hcW x0 x1 x2 x3).1 S512x2048.size (by sl_kernel_rfl) y

/-- What the first case leaves in the accumulator. -/
def soutA (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : condR i) (hcW : ¬condW i)
    (x0 : Vec F S512x2048 .bf16) (x1 : Vec F S2048x512 .bf16) (x2 : Vec F S2048x512 .bf16) (x3 : Vec F S512x2048 .bf16) : Vec F S512x2048 .f32 :=
  VS.read (Elt F) (VS.writes (Elt F) VS.junk (kernelRunA c i arg2 harg2 arg3 harg3 arg4 harg4 arg5 harg5 arg6 harg6 arg7 harg7 hcR hcW x0 x1 x2 x3).1)

/-- The middle case's store covers the accumulator. -/
theorem scoverB (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : ¬condW i)
    (x0 : Vec F S512x2048 .bf16) (x1 : Vec F S2048x512 .bf16) (x2 : Vec F S2048x512 .bf16) (x3 : Vec F S512x2048 .bf16) (xs : Vec F S512x2048 .f32) (y : S512x2048.Idx) :
    ∃ pc ∈ (kernelRunB c i arg2 harg2 arg3 harg3 arg4 harg4 arg5 harg5 arg6 harg6 arg7 harg7 hcR hcW x0 x1 x2 x3 xs).1, y ∈ pc.1.set :=
  View.cover_of_tiledL (kernelRunB c i arg2 harg2 arg3 harg3 arg4 harg4 arg5 harg5 arg6 harg6 arg7 harg7 hcR hcW x0 x1 x2 x3 xs).1 S512x2048.size (by sl_kernel_rfl) y

/-- What the middle case leaves in the accumulator, over what it held. -/
def soutB (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : ¬condW i)
    (x0 : Vec F S512x2048 .bf16) (x1 : Vec F S2048x512 .bf16) (x2 : Vec F S2048x512 .bf16) (x3 : Vec F S512x2048 .bf16) (xs : Vec F S512x2048 .f32) : Vec F S512x2048 .f32 :=
  VS.read (Elt F) (VS.writes (Elt F) VS.junk (kernelRunB c i arg2 harg2 arg3 harg3 arg4 harg4 arg5 harg5 arg6 harg6 arg7 harg7 hcR hcW x0 x1 x2 x3 xs).1)

/-- The last case's store into the output buffer covers it, -/
theorem coverC (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : condW i)
    (x0 : Vec F S512x2048 .bf16) (x1 : Vec F S2048x512 .bf16) (x2 : Vec F S2048x512 .bf16) (x3 : Vec F S512x2048 .bf16) (xs : Vec F S512x2048 .f32) (y : S512x2048.Idx) :
    ∃ pc ∈ (kernelRunC c i arg2 harg2 arg3 harg3 arg4 harg4 arg5 harg5 arg6 harg6 arg7 harg7 hcR hcW x0 x1 x2 x3 xs).1, y ∈ pc.1.set :=
  View.cover_of_tiledL (kernelRunC c i arg2 harg2 arg3 harg3 arg4 harg4 arg5 harg5 arg6 harg6 arg7 harg7 hcR hcW x0 x1 x2 x3 xs).1 S512x2048.size (by sl_kernel_rfl) y

/-- and its store into the accumulator covers that. -/
theorem scoverC (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : condW i)
    (x0 : Vec F S512x2048 .bf16) (x1 : Vec F S2048x512 .bf16) (x2 : Vec F S2048x512 .bf16) (x3 : Vec F S512x2048 .bf16) (xs : Vec F S512x2048 .f32) (y : S512x2048.Idx) :
    ∃ pc ∈ (kernelRunC c i arg2 harg2 arg3 harg3 arg4 harg4 arg5 harg5 arg6 harg6 arg7 harg7 hcR hcW x0 x1 x2 x3 xs).2.1, y ∈ pc.1.set :=
  View.cover_of_tiledL (kernelRunC c i arg2 harg2 arg3 harg3 arg4 harg4 arg5 harg5 arg6 harg6 arg7 harg7 hcR hcW x0 x1 x2 x3 xs).2.1 S512x2048.size (by sl_kernel_rfl) y

/-- What the last case leaves in the output buffer, -/
def outC (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : condW i)
    (x0 : Vec F S512x2048 .bf16) (x1 : Vec F S2048x512 .bf16) (x2 : Vec F S2048x512 .bf16) (x3 : Vec F S512x2048 .bf16) (xs : Vec F S512x2048 .f32) : Vec F S512x2048 .f32 :=
  VO.read (Elt F) (VO.writes (Elt F) VO.junk (kernelRunC c i arg2 harg2 arg3 harg3 arg4 harg4 arg5 harg5 arg6 harg6 arg7 harg7 hcR hcW x0 x1 x2 x3 xs).1)

/-- and in the accumulator. -/
def soutC (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : condW i)
    (x0 : Vec F S512x2048 .bf16) (x1 : Vec F S2048x512 .bf16) (x2 : Vec F S2048x512 .bf16) (x3 : Vec F S512x2048 .bf16) (xs : Vec F S512x2048 .f32) : Vec F S512x2048 .f32 :=
  VS.read (Elt F) (VS.writes (Elt F) VS.junk (kernelRunC c i arg2 harg2 arg3 harg3 arg4 harg4 arg5 harg5 arg6 harg6 arg7 harg7 hcR hcW x0 x1 x2 x3 xs).2.1)

/-! ## The accumulator point by point -/

/-- What the accumulator holds after the body at position `n`: at a reduction step 0 the first case's
    contents; otherwise the middle or the last case's, over what position `n - 1` left. -/
def accAt (c : Dev nD) : (n : ℕ) → n < cfg0.N → Vec F S512x2048 .f32
  | 0, hn => soutA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM (Memref.isWhole_whole _) ((hcondR ⟨0, hn⟩).mpr (Nat.zero_mod _)) (fun h => (fun h => by (try dsimp only at h); omega) ((hcondW ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 11 = 0 then
      if h10 : (n + 1) % 11 = 10 then False.elim (by omega)
      else soutA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM (Memref.isWhole_whole _) ((hcondR ⟨n + 1, hn⟩).mpr h0) (fun h => h10 ((hcondW ⟨n + 1, hn⟩).mp h)) (iblk m c 0 ⟨n + 1, hn⟩) (iblk m c 1 ⟨n + 1, hn⟩) (iblk m c 2 ⟨n + 1, hn⟩) (iblk m c 3 ⟨n + 1, hn⟩)
    else
      if h10 : (n + 1) % 11 = 10 then
        soutC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM (Memref.isWhole_whole _) (fun h => h0 ((hcondR ⟨n + 1, hn⟩).mp h)) ((hcondW ⟨n + 1, hn⟩).mpr h10) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        soutB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM (Memref.isWhole_whole _) (fun h => h0 ((hcondR ⟨n + 1, hn⟩).mp h)) (fun h => h10 ((hcondW ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_A (c : Dev nD) (t : Fin cfg0.N) (h0 : t.val % 11 = 0) (h10 : ¬t.val % 11 = 10) :
    accAt m c t.val t.isLt = soutA c (grid0.coords t) (ms0_0 t) (hs0_0 t) (ms0_1 t) (hs0_1 t) (ms0_2 t) (hs0_2 t) (ms0_3 t) (hs0_3 t) (ms0_4 t) (hs0_4 t) scM (Memref.isWhole_whole _) ((hcondR t).mpr h0) (fun h => h10 ((hcondW t).mp h)) (iblk m c 0 t) (iblk m c 1 t) (iblk m c 2 t) (iblk m c 3 t) := by
  obtain ⟨n, hn⟩ := t
  cases n with
  | zero => exact rfl
  | succ n => exact (dif_pos h0).trans ((dif_neg h10).trans rfl)

theorem accAt_B (c : Dev nD) (t : Fin cfg0.N) (h0 : ¬t.val % 11 = 0) (h10 : ¬t.val % 11 = 10) :
    accAt m c t.val t.isLt = soutB c (grid0.coords t) (ms0_0 t) (hs0_0 t) (ms0_1 t) (hs0_1 t) (ms0_2 t) (hs0_2 t) (ms0_3 t) (hs0_3 t) (ms0_4 t) (hs0_4 t) scM (Memref.isWhole_whole _) (fun h => h0 ((hcondR t).mp h)) (fun h => h10 ((hcondW t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h10).trans rfl)

theorem accAt_C (c : Dev nD) (t : Fin cfg0.N) (h0 : ¬t.val % 11 = 0) (h10 : t.val % 11 = 10) :
    accAt m c t.val t.isLt = soutC c (grid0.coords t) (ms0_0 t) (hs0_0 t) (ms0_1 t) (hs0_1 t) (ms0_2 t) (hs0_2 t) (ms0_3 t) (hs0_3 t) (ms0_4 t) (hs0_4 t) scM (Memref.isWhole_whole _) (fun h => h0 ((hcondR t).mp h)) ((hcondW t).mpr h10) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h10).trans rfl)

/-- What the output window's buffer holds after the body at point `t`: at a last reduction step the
    accumulator the body copied into it; elsewhere the body does not touch it and nothing reads this. -/
def outAt (c : Dev nD) (t : Fin cfg0.N) : Vec F S512x2048 .f32 :=
  if h10 : t.val % 11 = 10 then
    outC c (grid0.coords t) (ms0_0 t) (hs0_0 t) (ms0_1 t) (hs0_1 t) (ms0_2 t) (hs0_2 t) (ms0_3 t) (hs0_3 t) (ms0_4 t) (hs0_4 t) scM (Memref.isWhole_whole _) (fun h => (by omega : ¬t.val % 11 = 0) ((hcondR t).mp h)) ((hcondW t).mpr h10) (iblk m c 0 t) (iblk m c 1 t) (iblk m c 2 t) (iblk m c 3 t) (accAt m c (t.val - 1) (Nat.lt_of_le_of_lt (Nat.sub_le _ _) t.isLt))
  else accAt m c t.val t.isLt

theorem outAt_C (c : Dev nD) (t : Fin cfg0.N) (h0 : ¬t.val % 11 = 0) (h10 : t.val % 11 = 10) :
    outAt m c t = outC c (grid0.coords t) (ms0_0 t) (hs0_0 t) (ms0_1 t) (hs0_1 t) (ms0_2 t) (hs0_2 t) (ms0_3 t) (hs0_3 t) (ms0_4 t) (hs0_4 t) scM (Memref.isWhole_whole _) (fun h => h0 ((hcondR t).mp h)) ((hcondW t).mpr h10) (iblk m c 0 t) (iblk m c 1 t) (iblk m c 2 t) (iblk m c 3 t) (accAt m c (t.val - 1) (Nat.lt_of_le_of_lt (Nat.sub_le _ _) t.isLt)) := by
  unfold outAt; rw [dif_pos h10]

/-! ## The region's invariant -/

/-- Before the first point the class invariant (the accumulator at anything); before any later point
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body each input's buffer at its block and the output's
    at `outAt`; the invariant above; nothing owed; the stacked weight's copy held half by each of the two
    windows that read it, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any point.  The inputs' buffers hold their blocks; the point's reduction step says which
    case it is in; the invariant hands the body the accumulator (at anything before the very first point,
    else at what the point before left) and takes it back at this point's contents; away from a last
    step the output buffer goes back as it came, at a last step it comes back at the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, leaves_in0, leaves_in1, leaves_in2, leaves_in3]
  rw [show (dats m 0 c).owesAt () t.succ = (dats m 0 c).owesAt () t.castSucc from rfl]
  rw [show (dats m 0 c).Φ t.succ = PhiS m c (t.val + 1) t.isLt from rfl, PhiS_succ]
  by_cases h0 : t.val % 11 = 0
  · have h10 : ¬t.val % 11 = 10 := by omega
    rw [Dat.leavesExact_idle (dats m 0 c) 4 t (idleAt0_4 t (fun h => h10 ((hcondW t).mp h))) (noFlush0_4 t (fun h => h10 ((hcondW t).mp h)))]
    rw [accAt_A m c t h0 h10]
    unfold soutA; (try dsimp only)
    by_cases hz : t.val = 0
    · rw [PhiS_castSucc m c t, PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply ((kernelRunA c (grid0.coords t) _ _ _ _ _ _ _ _ _ _ _ _ ((hcondR t).mpr h0) (fun h => h10 ((hcondW t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((kernelRunA c (grid0.coords t) _ _ _ _ _ _ _ _ _ _ _ _ ((hcondR t).mpr h0) (fun h => h10 ((hcondW t).mp h)) (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverA c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h10 : t.val % 11 = 10
    · rw [show (dats m 0 c).leavesExact 4 t = owns (c : Thread nD τ) (ms0_4 t) fullShare ((dats m 0 c).after 4 t) from by
        unfold Dat.leavesExact; rw [liveAt0_4 t ((hcondW t).mpr h10)], after0_4]
      rw [accAt_C m c t h0 h10, outAt_C m c t h0 h10]
      unfold outC soutC; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((kernelRunC c (grid0.coords t) _ _ _ _ _ _ _ _ _ _ _ _ (fun h => h0 ((hcondR t).mp h)) ((hcondW t).mpr h10) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dats m 0 c) 4 t (idleAt0_4 t (fun h => h10 ((hcondW t).mp h))) (noFlush0_4 t (fun h => h10 ((hcondW t).mp h)))]
      rw [accAt_B m c t h0 h10]
      unfold soutB; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((kernelRunB c (grid0.coords t) _ _ _ _ _ _ _ _ _ _ _ _ (fun h => h0 ((hcondR t).mp h)) (fun h => h10 ((hcondW t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 176 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS, Hg⟩
  isplitl [HS]
  · iexists _; iexact HS
  iexact Hg

end Cert.KernelIdeal.Hand

end
-- ==== Proof.KI.Split.lean ====
/-
  How the buffers behind the five windows' arrays are dealt to the windows at the region's entry.
  Windows 1 and 2 both stage blocks of the stacked weight's bf16 copy (the gate columns and the up
  columns), so that buffer's full share is split into its two halves, one per window; the token
  copy, the down weight's copy and the result are each held whole by their one window.
-/
import proofs.«181866_j24970939859025_1_alg».proof.Proof.Gen.KernelIdeal.Launch
import Idealize.ShloMosaic.Lib.Pipeline.Frame

noncomputable section

namespace Cert.KernelIdeal.Hand

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

local notation "𝕄" => MT nD τ sig Unit (Elt F) ℕ (UR sig nD τ) ℕ

/-- The distinct buffers behind the five windows' arrays are four, conjoined one by one. -/
private theorem bigSep_arrRefs {M : Type} [URA M] (Φ : Ref sig .tc → sProp M) :
    bigSep (Finset.univ.image (Pipeline.arrRef spec0)) Φ = iprop(Φ main_v0 ∗ Φ main_v1 ∗ Φ main_v2 ∗ Φ main_v3) :=
  bigSep_eq_bigSepL_of_eq [main_v0, main_v1, main_v2, main_v3] (by decide) (by decide) Φ

/-- The arrays at the region's entry, from the distinct buffers behind them held whole: the stacked
    weight's buffer split between the two windows that read it. -/
theorem arrays_of_arrBufs (c : Dev nD) (V : (b : Ref sig .tc) → Buf (Elt F) ((c.tc : Thread nD τ).loc b))
    (dat : Dat τ (Elt F) Unit ℕ (UR sig nD τ) ℕ cfg0 c)
    (hA : ∀ w, dat.A w = V (Pipeline.arrRef spec0 w))
    (hq0 : dat.q 0 = fullShare) (hq1 : dat.q 1 = fullShare.left) (hq2 : dat.q 2 = fullShare.right) (hq3 : dat.q 3 = fullShare) :
    (Pipeline.arrBufs (Ix := Unit) (Name := ℕ) (U := UR sig nD τ) (Lvl := ℕ) spec0 c V : sProp 𝕄) ⊢ dat.arrays (dat.arrAt · 0) := by
  -- the shares the windows hold their arrays at: the four inputs their own, the output the full share
  have hs0 : dat.share 0 = fullShare := by unfold Dat.share; rw [if_neg (by decide)]; exact hq0
  have hs1 : dat.share 1 = fullShare.left := by unfold Dat.share; rw [if_neg (by decide)]; exact hq1
  have hs2 : dat.share 2 = fullShare.right := by unfold Dat.share; rw [if_neg (by decide)]; exact hq2
  have hs3 : dat.share 3 = fullShare := by unfold Dat.share; rw [if_neg (by decide)]; exact hq3
  have hs4 : dat.share 4 = fullShare := by unfold Dat.share; rw [if_pos (by decide)]
  -- each window's array is a whole buffer, held at its entry contents: the contents `V` of the buffer behind it
  have hwin : ∀ w : Fin 5,
      ((cfg0.win w).arr.view.loc (c.tc : Thread nD τ) ↦[(cfg0.win w).arr.view.set]{dat.share w} dat.arrAt w 0 : sProp 𝕄)
        = (((c.tc : Thread nD τ).loc (Pipeline.arrRef spec0 w)) ↦{dat.share w} V (Pipeline.arrRef spec0 w)) := fun w => by
    rw [(arr_whole0 w).set_eq_univ, ← hA w]; rfl
  unfold Pipeline.arrBufs Dat.arrays
  -- the distinct buffers are four; the windows five
  rw [bigSep_arrRefs, bigSep_W0,
    hwin 0, hwin 1, hwin 2, hwin 3, hwin 4, hs0, hs1, hs2, hs3, hs4]
  iintro ⟨HA, HB, HC, HD⟩
  -- the buffer windows 1 and 2 share, held whole, is its left half and its right half
  ihave HB := (pointsTo_share (PosShare.mem_left_op_right fullShare)).1 $$ HB
  icases HB with ⟨HBl, HBr⟩
  isplitl [HA]; · iexact HA
  isplitl [HBl]; · iexact HBl
  isplitl [HBr]; · iexact HBr
  isplitl [HC]; · iexact HC
  iexact HD

end Cert.KernelIdeal.Hand

end
-- ==== Proof.KI.Frame.lean ====
/-
  The frame of the program: every weakly fair execution terminates without a fault and leaves the
  three arguments as launched.  The launch hands each window its array (the stacked weight's copy
  in two halves), the body obligation carries the run across the 176 grid points, and the arguments,
  which no window stages, bypass the region.
-/
import proofs.«181866_j24970939859025_1_alg».proof.Proof.KI.Data
import proofs.«181866_j24970939859025_1_alg».proof.Proof.KI.Split
import proofs.«181866_j24970939859025_1_alg».proof.Proof.LibSharedFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; every window's array ends at what the write-backs leave,
    every other unscoped buffer as the region found it. -/
theorem run_main : θ_run defs (onTc (τ := τ) (main (F := F))) (s₀ m ρ) (Pipeline.FramePost cfgs (dats m) 0 (V m)) :=
  Pipeline.Shared.θ_run_frame_track_shared cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := fun c => arrays_of_arrBufs c (V m c) (dats m 0 c) (A_eq m c) rfl rfl rfl rfl)
    (hin := hin m) (hout := hout m)

/-- The frame claim's post, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Hand

end
-- ==== Proof.KI.Payload.lean ====
/-
  What the kernel body stores, read at an index at the ideal instance.

  At the reduction's first step the body stores zeros into its accumulator.  At every step it then
  stores `acc + (silu(x·Wg) ⊙ (x·Wu)) · Wd` for the current blocks: with `g n' = ∑ k, xb[p,k]·gb[k,n']`
  and `u n' = ∑ k, xb[p,k]·ub[k,n']`, entry `(p, q)` of what is stored is
  `acc[p,q] + ∑ n' < 512, (g n' · logistic (g n') · u n') · db[n',q]`.  Changes of float format are the
  identity here, a matrix product into a zero accumulator is the plain sum, and same-shape shape
  casts read where they are read.
-/
import proofs.«181866_j24970939859025_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Hand

open Idealize.ShloMosaic Idealize.ShloMosaic.ValueIdx Cert.KernelIdeal Cert.KernelIdeal.Gen

/-! ## The two matrix products' operand indices, axis by axis

For a plain rows-by-columns product the left operand is read at (output row, contraction position)
and the right operand at (contraction position, output column). -/

private theorem lhs_gu_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
private theorem lhs_gu_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
private theorem rhs_gu_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
private theorem rhs_gu_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

private theorem lhs_dn_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
private theorem lhs_dn_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
private theorem rhs_dn_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
private theorem rhs_dn_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-! ## A matrix product into a zero accumulator, at an entry -/

/-- The gate and up products: entry `(p, n)` of a [512,2048] by [2048,512] product into zeros is `∑ k < 2048, l[p,k] · r[k,n]`. -/
private theorem mm_gu_apply (l : FVec Ideal S512x2048 .bf16) (r : FVec Ideal S2048x512 .bf16) (p : Fin 512) (n : Fin 512) :
    matmul (F := Ideal) dot_S512x2048_S2048x512_S512x512_1_0_0_1_n_n none l r (constant (F := Ideal) S512x512 .f32 0x00000000#32) (ix2 p n)
      = ∑ k : Fin 2048, l (ix2 p k) * r (ix2 k n) := by
  show FloatOps.matmul dot_S512x2048_S2048x512_S512x512_1_0_0_1_n_n none l r (constant (F := Ideal) S512x512 .f32 0x00000000#32) (ix2 p n) = _
  rw [Ideal.matmul_constant_zero_apply, ← Equiv.sum_comp (ValueIdx.contrEquiv1 dot_S512x2048_S2048x512_S512x512_1_0_0_1_n_n 2048 rfl rfl).symm]
  refine Finset.sum_congr rfl fun k _ => ?_
  have hk := ValueIdx.contrEquiv1_symm_val dot_S512x2048_S2048x512_S512x512_1_0_0_1_n_n 2048 rfl rfl k
  have el : dot_S512x2048_S2048x512_S512x512_1_0_0_1_n_n.lhsIdx (ix2 p n) ((ValueIdx.contrEquiv1 dot_S512x2048_S2048x512_S512x512_1_0_0_1_n_n 2048 rfl rfl).symm k) = ix2 p k := funext fun a => Fin.ext (by
    match a with
    | ⟨0, _⟩ => exact lhs_gu_0 _ _
    | ⟨1, _⟩ => exact (lhs_gu_1 _ _).trans hk)
  have er : dot_S512x2048_S2048x512_S512x512_1_0_0_1_n_n.rhsIdx (ix2 p n) ((ValueIdx.contrEquiv1 dot_S512x2048_S2048x512_S512x512_1_0_0_1_n_n 2048 rfl rfl).symm k) = ix2 k n := funext fun a => Fin.ext (by
    match a with
    | ⟨0, _⟩ => exact (rhs_gu_0 _ _).trans hk
    | ⟨1, _⟩ => exact rhs_gu_1 _ _)
  rw [el, er]

/-- The down product: entry `(p, n)` of a [512,512] by [512,2048] product into zeros is `∑ k < 512, l[p,k] · r[k,n]`. -/
private theorem mm_dn_apply (l : FVec Ideal S512x512 .bf16) (r : FVec Ideal S512x2048 .bf16) (p : Fin 512) (n : Fin 2048) :
    matmul (F := Ideal) dot_S512x512_S512x2048_S512x2048_1_0_0_1_n_n none l r (constant (F := Ideal) S512x2048 .f32 0x00000000#32) (ix2 p n)
      = ∑ k : Fin 512, l (ix2 p k) * r (ix2 k n) := by
  show FloatOps.matmul dot_S512x512_S512x2048_S512x2048_1_0_0_1_n_n none l r (constant (F := Ideal) S512x2048 .f32 0x00000000#32) (ix2 p n) = _
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p n) ((ValueIdx.contrEquiv1 dot_S512x512_S512x2048_S512x2048_1_0_0_1_n_n 512 rfl rfl).symm k) = ix2 p k := funext fun a => Fin.ext (by
    match a with
    | ⟨0, _⟩ => exact lhs_dn_0 _ _
    | ⟨1, _⟩ => exact (lhs_dn_1 _ _).trans hk)
  have er : dot_S512x512_S512x2048_S512x2048_1_0_0_1_n_n.rhsIdx (ix2 p n) ((ValueIdx.contrEquiv1 dot_S512x512_S512x2048_S512x2048_1_0_0_1_n_n 512 rfl rfl).symm k) = ix2 k n := funext fun a => Fin.ext (by
    match a with
    | ⟨0, _⟩ => exact (rhs_dn_0 _ _).trans hk
    | ⟨1, _⟩ => exact rhs_dn_1 _ _)
  rw [el, er]

/-- The logistic of a block, at an entry, is the logistic of the entry. -/
private theorem logistic_apply {s : Shape} {φ : FTy} (a : FVec Ideal s φ) (i : s.Idx) :
    logistic a i = Ideal.logistic (a i) := rfl

/-- The reset stores zeros. -/
theorem pay1_apply (i : S512x2048.Idx) : k0_pay1 (F := Ideal) i = (0 : EReal) := by
  unfold k0_pay1
  simp only [shapeCast_self, broadcast_apply]
  exact Ideal.ofBits_zero_f32

/-- One reduction step's store, at entry `(p, q)` of the accumulator block. -/
theorem pay2_apply (xb : Vec Ideal S512x2048 .bf16) (gb : Vec Ideal S2048x512 .bf16) (ub : Vec Ideal S2048x512 .bf16)
    (acc : Vec Ideal S512x2048 .f32) (db : Vec Ideal S512x2048 .bf16) (p : Fin 512) (q : Fin 2048) :
    k0_pay2 (F := Ideal) xb gb ub acc db (ix2 p q)
      = (acc (ix2 p q) : EReal) + ∑ n' : Fin 512,
          (((∑ k : Fin 2048, (xb (ix2 p k) : EReal) * gb (ix2 k n'))
              * Ideal.logistic (∑ k : Fin 2048, (xb (ix2 p k) : EReal) * gb (ix2 k n')))
            * (∑ k : Fin 2048, (xb (ix2 p k) : EReal) * ub (ix2 k n'))) * (db (ix2 n' q) : EReal) := by
  unfold k0_pay2
  simp only [shapeCast_self, addf_apply, mm_dn_apply, truncf_apply, mulf_apply, logistic_apply, mm_gu_apply]

end Cert.KernelIdeal.Hand

end
-- ==== Proof.Spec.lean ====
/-
  The mathematics of the fused SwiGLU expert MLP, stated once over the extended reals.

  For a token row `r`, the stacked weight `w : [2048, 11264]` holds the gate projection in its
  first 5632 columns and the up projection in its last 5632.  With
  `proj r n = ∑ k, x[r,k] · w[k,n]`, the hidden activation is
  `hidden r n = (proj r n · logistic (proj r n)) · proj r (5632 + n)` (SiLU of the gate times the
  up projection), and the result is `G[r,h] = ∑ n < 5632, hidden r n · d[n,h]`.

  A kernel that walks the 5632 hidden columns in 11 slabs of 512, adding each slab's contribution
  to a running sum that starts at zero, passes through `partialSum J` after `J` slabs.
-/
import Idealize.ShloMosaic.PureOps.Ideal
import Idealize.ShloMosaic.Lib.ValueIdx

noncomputable section

namespace Cert.Swiglu

open Idealize.ShloMosaic Idealize.ShloMosaic.ValueIdx

abbrev SX : Shape := ⟨2, ![8192, 2048]⟩
abbrev SW : Shape := ⟨2, ![2048, 11264]⟩
abbrev SD : Shape := ⟨2, ![5632, 2048]⟩

/-- The tokens, the stacked gate|up weight and the down weight, as arrays of extended reals. -/
abbrev XArr := (⟨SX, .f32⟩ : BufTy).Contents (Elt Ideal)
abbrev WArr := (⟨SW, .f32⟩ : BufTy).Contents (Elt Ideal)
abbrev DArr := (⟨SD, .f32⟩ : BufTy).Contents (Elt Ideal)

/-- Row `r` of the tokens against column `n` of the stacked weight. -/
def proj (x : XArr) (w : WArr) (r : Fin 8192) (n : Fin 11264) : EReal :=
  ∑ k : Fin 2048, x (ix2 r k) * w (ix2 k n)

/-- Hidden column `n` read in the gate half of the stacked weight. -/
def gateCol (n : Fin 5632) : Fin 11264 := ⟨n.val, by have := n.isLt; omega⟩
/-- Hidden column `n` read in the up half of the stacked weight. -/
def upCol (n : Fin 5632) : Fin 11264 := ⟨5632 + n.val, by have := n.isLt; omega⟩

/-- SiLU of the gate projection times the up projection. -/
def hidden (x : XArr) (w : WArr) (r : Fin 8192) (n : Fin 5632) : EReal :=
  proj x w r (gateCol n) * Ideal.logistic (proj x w r (gateCol n)) * proj x w r (upCol n)

/-- Hidden column `n`'s contribution to result entry `(r, h)`. -/
def term (x : XArr) (w : WArr) (d : DArr) (r : Fin 8192) (h : Fin 2048) (n : Fin 5632) : EReal :=
  hidden x w r n * d (ix2 n h)

/-- The result: every hidden column's contribution, summed. -/
def G (x : XArr) (w : WArr) (d : DArr) : (⟨SX, .f32⟩ : BufTy).Contents (Elt Ideal) :=
  fun i => ∑ n : Fin 5632, term x w d (i 0) (i 1) n

/-- Slab `j` of 512 hidden columns: its contribution to entry `(r, h)` (nothing past column 5632). -/
def slabSum (x : XArr) (w : WArr) (d : DArr) (r : Fin 8192) (h : Fin 2048) (j : ℕ) : EReal :=
  ∑ n' : Fin 512, if hn : 512 * j + n'.val < 5632 then term x w d r h ⟨512 * j + n'.val, hn⟩ else 0

/-- The running sum after the first `J` slabs. -/
def partialSum (x : XArr) (w : WArr) (d : DArr) (r : Fin 8192) (h : Fin 2048) (J : ℕ) : EReal :=
  ∑ j ∈ Finset.range J, slabSum x w d r h j

theorem partialSum_zero (x : XArr) (w : WArr) (d : DArr) (r : Fin 8192) (h : Fin 2048) :
    partialSum x w d r h 0 = 0 := Finset.sum_range_zero _

theorem partialSum_succ (x : XArr) (w : WArr) (d : DArr) (r : Fin 8192) (h : Fin 2048) (J : ℕ) :
    partialSum x w d r h (J + 1) = partialSum x w d r h J + slabSum x w d r h J :=
  Finset.sum_range_succ _ _

end Cert.Swiglu

end
-- ==== Proof.KI.Blocks.lean ====
/-
  The blocks the kernel body loads at a grid point, read off the launch arguments, and what one
  reduction step's store adds.

  Point `t` of the grid is token tile `t / 11` and reduction step `t % 11`.  The token block at `t` is
  rows `512·(t/11) …` of the tokens; the gate and up blocks are columns `512·(t%11) …` and
  `5632 + 512·(t%11) …` of the stacked weight; the down block is rows `512·(t%11) …` of the down weight
  (the host's conversions to bf16 change nothing at the ideal instance).  Hence the body's store at
  `t` adds to entry `(p, q)` of the accumulator exactly slab `t % 11` of token row `512·(t/11) + p`.
-/
import proofs.«181866_j24970939859025_1_alg».proof.Proof.KI.Data
import proofs.«181866_j24970939859025_1_alg».proof.Proof.KI.Payload
import proofs.«181866_j24970939859025_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Swiglu

variable (m : (ℓ : Loc nD τ sig) → Buf (Elt Ideal) ℓ) (ρ : Dev nD → PrngReg)

/-- The three arguments on core `c`, as launched. -/
abbrev argX (c : Dev nD) : XArr := m ((c.tc : Thread nD τ).loc main_arg0)
abbrev argW (c : Dev nD) : WArr := m ((c.tc : Thread nD τ).loc main_arg1)
abbrev argD (c : Dev nD) : DArr := m ((c.tc : Thread nD τ).loc main_arg2)

/-! ## The arrays the region finds

Each bf16 copy is its argument: narrowing is the identity here. -/

private theorem V_v0 (c : Dev nD) : (V m c main_v0 : S8192x2048.Idx → EReal) = argX m c := by
  dsimp only [V, hostOps0]; after_results; rfl
private theorem V_v1 (c : Dev nD) : (V m c main_v1 : S2048x11264.Idx → EReal) = argW m c := by
  dsimp only [V, hostOps0]; after_results; rfl
private theorem V_v2 (c : Dev nD) : (V m c main_v2 : S5632x2048.Idx → EReal) = argD m c := by
  dsimp only [V, hostOps0]; after_results; rfl

/-! ## The index maps over the grid -/

private theorem idx0_0 : ∀ t : Fin cfg0.N, win0_0.index t (0 : Fin 2) = t.val / 11 := (by decide +kernel : ∀ t : Fin grid0.N, _)
private theorem idx0_1 : ∀ t : Fin cfg0.N, win0_0.index t (1 : Fin 2) = 0 := (by decide +kernel : ∀ t : Fin grid0.N, _)
private theorem idx1_0 : ∀ t : Fin cfg0.N, win0_1.index t (0 : Fin 2) = 0 := (by decide +kernel : ∀ t : Fin grid0.N, _)
private theorem idx1_1 : ∀ t : Fin cfg0.N, win0_1.index t (1 : Fin 2) = t.val % 11 := (by decide +kernel : ∀ t : Fin grid0.N, _)
private theorem idx2_0 : ∀ t : Fin cfg0.N, win0_2.index t (0 : Fin 2) = 0 := (by decide +kernel : ∀ t : Fin grid0.N, _)
private theorem idx2_1 : ∀ t : Fin cfg0.N, win0_2.index t (1 : Fin 2) = 11 + t.val % 11 := (by decide +kernel : ∀ t : Fin grid0.N, _)
private theorem idx3_0 : ∀ t : Fin cfg0.N, win0_3.index t (0 : Fin 2) = t.val % 11 := (by decide +kernel : ∀ t : Fin grid0.N, _)
private theorem idx3_1 : ∀ t : Fin cfg0.N, win0_3.index t (1 : Fin 2) = 0 := (by decide +kernel : ∀ t : Fin grid0.N, _)

/-! ## The blocks, read off the arguments -/

theorem xblk_apply (c : Dev nD) (t : Fin cfg0.N) (p : Fin 512) (k : Fin 2048) (r : Fin 8192) (hr : r.val = 512 * (t.val / 11) + p.val) :
    ((iblk m c 0 t : Vec Ideal S512x2048 .bf16) (ix2 p k) : EReal) = argX m c (ix2 r k) := by
  refine Eq.trans ?_ (congrFun (V_v0 m c) (ix2 r k))
  show V m c main_v0 (((cfg0.win 0).blk t).view.emb (ix2 p k)) = V m c main_v0 (ix2 r k)
  refine congrArg (V m c main_v0) (funext fun a => Fin.ext ?_)
  have hp : p.val < 512 := p.isLt
  match a with
  | ⟨0, _⟩ => show win0_0.index t (0 : Fin 2) * 512 + 1 * p.val = r.val; rw [idx0_0 t]; omega
  | ⟨1, _⟩ => show win0_0.index t (1 : Fin 2) * 2048 + 1 * k.val = k.val; rw [idx0_1 t]; omega

theorem gblk_apply (c : Dev nD) (t : Fin cfg0.N) (k : Fin 2048) (n' : Fin 512) (n : Fin 11264) (hn : n.val = 512 * (t.val % 11) + n'.val) :
    ((iblk m c 1 t : Vec Ideal S2048x512 .bf16) (ix2 k n') : EReal) = argW m c (ix2 k n) := by
  refine Eq.trans ?_ (congrFun (V_v1 m c) (ix2 k n))
  show V m c main_v1 (((cfg0.win 1).blk t).view.emb (ix2 k n')) = V m c main_v1 (ix2 k n)
  refine congrArg (V m c main_v1) (funext fun a => Fin.ext ?_)
  match a with
  | ⟨0, _⟩ => show win0_1.index t (0 : Fin 2) * 2048 + 1 * k.val = k.val; rw [idx1_0 t]; omega
  | ⟨1, _⟩ => show win0_1.index t (1 : Fin 2) * 512 + 1 * n'.val = n.val; rw [idx1_1 t]; omega

theorem ublk_apply (c : Dev nD) (t : Fin cfg0.N) (k : Fin 2048) (n' : Fin 512) (n : Fin 11264) (hn : n.val = 5632 + 512 * (t.val % 11) + n'.val) :
    ((iblk m c 2 t : Vec Ideal S2048x512 .bf16) (ix2 k n') : EReal) = argW m c (ix2 k n) := by
  refine Eq.trans ?_ (congrFun (V_v1 m c) (ix2 k n))
  show V m c main_v1 (((cfg0.win 2).blk t).view.emb (ix2 k n')) = V m c main_v1 (ix2 k n)
  refine congrArg (V m c main_v1) (funext fun a => Fin.ext ?_)
  match a with
  | ⟨0, _⟩ => show win0_2.index t (0 : Fin 2) * 2048 + 1 * k.val = k.val; rw [idx2_0 t]; omega
  | ⟨1, _⟩ => show win0_2.index t (1 : Fin 2) * 512 + 1 * n'.val = n.val; rw [idx2_1 t]; omega

theorem dblk_apply (c : Dev nD) (t : Fin cfg0.N) (n' : Fin 512) (q : Fin 2048) (n : Fin 5632) (hn : n.val = 512 * (t.val % 11) + n'.val) :
    ((iblk m c 3 t : Vec Ideal S512x2048 .bf16) (ix2 n' q) : EReal) = argD m c (ix2 n q) := by
  refine Eq.trans ?_ (congrFun (V_v2 m c) (ix2 n q))
  show V m c main_v2 (((cfg0.win 3).blk t).view.emb (ix2 n' q)) = V m c main_v2 (ix2 n q)
  refine congrArg (V m c main_v2) (funext fun a => Fin.ext ?_)
  match a with
  | ⟨0, _⟩ => show win0_3.index t (0 : Fin 2) * 512 + 1 * n'.val = n.val; rw [idx3_0 t]; omega
  | ⟨1, _⟩ => show win0_3.index t (1 : Fin 2) * 2048 + 1 * q.val = q.val; rw [idx3_1 t]; omega

/-! ## One reduction step adds one slab -/

/-- One hidden column's term of a step, over blocks that agree entrywise with rows and columns of the arrays:
    the block's term is the arrays'. -/
private theorem slab_term (xb : Vec Ideal S512x2048 .bf16) (gb ub : Vec Ideal S2048x512 .bf16) (db : Vec Ideal S512x2048 .bf16)
    (x : XArr) (w : WArr) (d : DArr) (p n' : Fin 512) (q : Fin 2048) (r : Fin 8192) (ng nu : Fin 11264) (nd : Fin 5632)
    (hx : ∀ k : Fin 2048, (xb (ix2 p k) : EReal) = x (ix2 r k))
    (hg : ∀ k : Fin 2048, (gb (ix2 k n') : EReal) = w (ix2 k ng))
    (hu : ∀ k : Fin 2048, (ub (ix2 k n') : EReal) = w (ix2 k nu))
    (hd : (db (ix2 n' q) : EReal) = d (ix2 nd q)) :
    (((∑ k : Fin 2048, (xb (ix2 p k) : EReal) * gb (ix2 k n'))
          * Ideal.logistic (∑ k : Fin 2048, (xb (ix2 p k) : EReal) * gb (ix2 k n')))
        * (∑ k : Fin 2048, (xb (ix2 p k) : EReal) * ub (ix2 k n'))) * (db (ix2 n' q) : EReal)
      = (((∑ k : Fin 2048, x (ix2 r k) * w (ix2 k ng)) * Ideal.logistic (∑ k : Fin 2048, x (ix2 r k) * w (ix2 k ng)))
        * (∑ k : Fin 2048, x (ix2 r k) * w (ix2 k nu))) * d (ix2 nd q) := by
  have eg : (∑ k : Fin 2048, (xb (ix2 p k) : EReal) * gb (ix2 k n')) = ∑ k : Fin 2048, x (ix2 r k) * w (ix2 k ng) :=
    Finset.sum_congr rfl fun k _ => by rw [hx k, hg k]
  have eu : (∑ k : Fin 2048, (xb (ix2 p k) : EReal) * ub (ix2 k n')) = ∑ k : Fin 2048, x (ix2 r k) * w (ix2 k nu) :=
    Finset.sum_congr rfl fun k _ => by rw [hx k, hu k]
  rw [eg, eu, hd]

/-- The body's store at point `t`, over an accumulator holding `acc`: entry `(p, q)` gains slab `t % 11`
    of token row `r = 512·(t/11) + p`. -/
theorem step_apply (c : Dev nD) (t : Fin cfg0.N) (acc : Vec Ideal S512x2048 .f32) (p : Fin 512) (q : Fin 2048)
    (r : Fin 8192) (hr : r.val = 512 * (t.val / 11) + p.val) :
    (k0_pay2 (F := Ideal) (iblk m c 0 t) (iblk m c 1 t) (iblk m c 2 t) acc (iblk m c 3 t) (ix2 p q) : EReal)
      = (acc (ix2 p q) : EReal) + slabSum (argX m c) (argW m c) (argD m c) r q (t.val % 11) := by
  have ht : t.val % 11 < 11 := Nat.mod_lt t.val (by norm_num)
  refine (pay2_apply _ _ _ _ _ p q).trans ?_
  refine congrArg ((acc (ix2 p q) : EReal) + ·) ?_
  unfold Cert.Swiglu.slabSum
  refine Finset.sum_congr rfl fun n' _ => ?_
  have hn' : n'.val < 512 := n'.isLt
  have hlt : 512 * (t.val % 11) + n'.val < 5632 := by omega
  rw [dif_pos hlt]
  unfold Cert.Swiglu.term Cert.Swiglu.hidden Cert.Swiglu.proj
  exact slab_term (iblk m c 0 t) (iblk m c 1 t) (iblk m c 2 t) (iblk m c 3 t) (argX m c) (argW m c) (argD m c) p n' q r
    (gateCol ⟨512 * (t.val % 11) + n'.val, hlt⟩) (upCol ⟨512 * (t.val % 11) + n'.val, hlt⟩) ⟨512 * (t.val % 11) + n'.val, hlt⟩
    (fun k => xblk_apply m c t p k r hr)
    (fun k => gblk_apply m c t k n' (gateCol ⟨512 * (t.val % 11) + n'.val, hlt⟩) rfl)
    (fun k => ublk_apply m c t k n' (upCol ⟨512 * (t.val % 11) + n'.val, hlt⟩)
      (by show 5632 + (512 * (t.val % 11) + n'.val) = 5632 + 512 * (t.val % 11) + n'.val; omega))
    (dblk_apply m c t n' q ⟨512 * (t.val % 11) + n'.val, hlt⟩ rfl)

end Cert.KernelIdeal.Hand

end
-- ==== Proof.KI.Pieces.lean ====
/-
  What each case of the kernel body leaves in the accumulator and in the output buffer, as the body's
  arithmetic applied to the blocks it loaded.  In every case the accumulator ends at one reduction
  step's store: the step's product added to what the accumulator held when it was loaded, which in
  the first case is the zeros the reset just stored and otherwise what the point before left.  At a
  last reduction step the output buffer receives the accumulator after that store.
-/
import proofs.«181866_j24970939859025_1_alg».proof.Proof.KI.Data
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole-block rectangle's offsets are zero. -/
private theorem hz00 : (![0, 0] : Fin 2 → Nat) = fun _ => 0 := funext fun a => by fin_cases a <;> rfl

theorem soutA_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : condR i) (hcW : ¬condW i)
    (x0 : Vec F S512x2048 .bf16) (x1 : Vec F S2048x512 .bf16) (x2 : Vec F S2048x512 .bf16) (x3 : Vec F S512x2048 .bf16) :
    soutA c i arg2 harg2 arg3 harg3 arg4 harg4 arg5 harg5 arg6 harg6 arg7 harg7 hcR hcW x0 x1 x2 x3 = k0_pay2 x0 x1 x2 (k0_pay1 (F := F)) x3 := by
  unfold soutA
  rw [View.read_writes_eq_canon _ _ _ (scoverA c i arg2 harg2 arg3 harg3 arg4 harg4 arg5 harg5 arg6 harg6 arg7 harg7 hcR hcW x0 x1 x2 x3)]
  unfold kernelRunA
  dsimp only
  sl_unfold_words
  rw [View.canon_cons_unit_zero (S := S512x2048) hz00, View.readCov_unit_zero (S := S512x2048) _ hz00]
  simp only [View.readAt_eq_ld, harg2.read_unread, harg3.read_unread, harg4.read_unread, harg5.read_unread,
    View.ld_unit_zero (S := S512x2048) hz00, View.ld_unit_zero (S := S2048x512) hz00]

theorem soutB_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : ¬condW i)
    (x0 : Vec F S512x2048 .bf16) (x1 : Vec F S2048x512 .bf16) (x2 : Vec F S2048x512 .bf16) (x3 : Vec F S512x2048 .bf16) (xs : Vec F S512x2048 .f32) :
    soutB c i arg2 harg2 arg3 harg3 arg4 harg4 arg5 harg5 arg6 harg6 arg7 harg7 hcR hcW x0 x1 x2 x3 xs = k0_pay2 x0 x1 x2 xs x3 := by
  unfold soutB
  rw [View.read_writes_eq_canon _ _ _ (scoverB c i arg2 harg2 arg3 harg3 arg4 harg4 arg5 harg5 arg6 harg6 arg7 harg7 hcR hcW x0 x1 x2 x3 xs)]
  unfold kernelRunB
  dsimp only
  sl_unfold_words
  rw [View.canon_unit_zero hz00]
  simp only [View.readAt_eq_ld, harg2.read_unread, harg3.read_unread, harg4.read_unread, harg5.read_unread,
    harg7.read_unread, View.ld_unit_zero (S := S512x2048) hz00, View.ld_unit_zero (S := S2048x512) hz00]

theorem soutC_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : condW i)
    (x0 : Vec F S512x2048 .bf16) (x1 : Vec F S2048x512 .bf16) (x2 : Vec F S2048x512 .bf16) (x3 : Vec F S512x2048 .bf16) (xs : Vec F S512x2048 .f32) :
    soutC c i arg2 harg2 arg3 harg3 arg4 harg4 arg5 harg5 arg6 harg6 arg7 harg7 hcR hcW x0 x1 x2 x3 xs = k0_pay2 x0 x1 x2 xs x3 := by
  unfold soutC
  rw [View.read_writes_eq_canon _ _ _ (scoverC c i arg2 harg2 arg3 harg3 arg4 harg4 arg5 harg5 arg6 harg6 arg7 harg7 hcR hcW x0 x1 x2 x3 xs)]
  unfold kernelRunC
  dsimp only
  sl_unfold_words
  rw [View.canon_unit_zero hz00]
  simp only [View.readAt_eq_ld, harg2.read_unread, harg3.read_unread, harg4.read_unread, harg5.read_unread,
    harg7.read_unread, View.ld_unit_zero (S := S512x2048) hz00, View.ld_unit_zero (S := S2048x512) hz00]

theorem outC_eq (c : Dev nD) (i : grid0.Coords) (arg2 : Memref sig .tc .vmem S512x2048 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S512x2048 .f32) (harg6 : arg6.IsWhole) (arg7 : Memref sig .tc .vmem S512x2048 .f32) (harg7 : arg7.IsWhole) (hcR : ¬condR i) (hcW : condW i)
    (x0 : Vec F S512x2048 .bf16) (x1 : Vec F S2048x512 .bf16) (x2 : Vec F S2048x512 .bf16) (x3 : Vec F S512x2048 .bf16) (xs : Vec F S512x2048 .f32) :
    outC c i arg2 harg2 arg3 harg3 arg4 harg4 arg5 harg5 arg6 harg6 arg7 harg7 hcR hcW x0 x1 x2 x3 xs = k0_pay2 x0 x1 x2 xs x3 := by
  unfold outC
  rw [View.read_writes_eq_canon _ _ _ (coverC c i arg2 harg2 arg3 harg3 arg4 harg4 arg5 harg5 arg6 harg6 arg7 harg7 hcR hcW x0 x1 x2 x3 xs)]
  unfold kernelRunC
  dsimp only
  sl_unfold_words
  rw [View.canon_unit_zero hz00, View.readCov_unit_zero (S := S512x2048) _ hz00]
  simp only [View.readAt_eq_ld, harg2.read_unread, harg3.read_unread, harg4.read_unread, harg5.read_unread,
    harg7.read_unread, View.ld_unit_zero (S := S512x2048) hz00, View.ld_unit_zero (S := S2048x512) hz00]

end Cert.KernelIdeal.Hand

end
-- ==== Proof.Blocked.lean ====
/-
  Summing the 5632 hidden columns slab by slab (11 slabs of 512) gives the whole sum: addition of
  extended reals is commutative and associative, so no finiteness is needed.
-/
import proofs.«181866_j24970939859025_1_alg».proof.Proof.Spec

noncomputable section

namespace Cert.Swiglu

open Idealize.ShloMosaic Idealize.ShloMosaic.ValueIdx

/-- A hidden column `n < 5632` is slab `n / 512`, place `n % 512`; conversely slab `j < 11`, place
`n' < 512` is column `512 * j + n'`.  This is a bijection because `5632 = 11 * 512`. -/
private def slabEquiv : Fin 11 × Fin 512 ≃ Fin 5632 where
  toFun p := ⟨512 * p.1.val + p.2.val, by have := p.1.isLt; have := p.2.isLt; omega⟩
  invFun n := (⟨n.val / 512, by have := n.isLt; omega⟩, ⟨n.val % 512, by omega⟩)
  left_inv p := by
    rcases p with ⟨⟨a, ha⟩, ⟨b, hb⟩⟩
    refine Prod.ext (Fin.ext ?_) (Fin.ext ?_)
    · show (512 * a + b) / 512 = a
      omega
    · show (512 * a + b) % 512 = b
      omega
  right_inv n := by
    refine Fin.ext ?_
    show 512 * (n.val / 512) + n.val % 512 = n.val
    omega

/-- In any commutative additive monoid, summing a family over `Fin 5632` slab by slab (eleven slabs
of 512, each guarded by the bound `< 5632`, which always holds) gives the whole sum: every guard is
true, and `(j, n') ↦ 512 * j + n'` re-indexes the double sum as the single one. -/
private theorem sum_slabs {M : Type*} [AddCommMonoid M] (f : Fin 5632 → M) :
    (∑ j ∈ Finset.range 11, ∑ n' : Fin 512,
      if hn : 512 * j + n'.val < 5632 then f ⟨512 * j + n'.val, hn⟩ else 0) = ∑ n, f n := by
  rw [← Fin.sum_univ_eq_sum_range (fun j => ∑ n' : Fin 512,
      if hn : 512 * j + n'.val < 5632 then f ⟨512 * j + n'.val, hn⟩ else 0) 11]
  rw [← slabEquiv.sum_comp f, Fintype.sum_prod_type]
  refine Finset.sum_congr rfl fun j _ => Finset.sum_congr rfl fun n' _ => ?_
  have hn : 512 * j.val + n'.val < 5632 := by have := j.isLt; have := n'.isLt; omega
  rw [dif_pos hn]
  rfl

/-- All eleven slabs make the whole sum over the hidden columns. -/
theorem partialSum_eleven (x : XArr) (w : WArr) (d : DArr) (r : Fin 8192) (h : Fin 2048) :
    partialSum x w d r h 11 = ∑ n : Fin 5632, term x w d r h n := by
  unfold partialSum slabSum
  exact sum_slabs (term x w d r h)

/-- The specification, entry by entry, is the running sum after the last slab. -/
theorem G_eq_partialSum (x : XArr) (w : WArr) (d : DArr) (i : SX.Idx) :
    G x w d i = partialSum x w d (i 0) (i 1) 11 := by
  unfold G
  exact (partialSum_eleven x w d (i 0) (i 1)).symm

end Cert.Swiglu

end
-- ==== Proof.KI.Value.lean ====
/-
  The kernel's result array at the ideal instance is the specification.

  After point `t` entry `(p, q)` of the accumulator is the running sum of the first `t % 11 + 1` slabs
  for token row `512·(t/11) + p` and result column `q`: the reset starts it at zero plus the first slab,
  every later step adds its slab (induction on the point).  At a last reduction step the output block
  is that accumulator, all eleven slabs, which is the whole sum over the hidden columns; the sixteen
  written-back blocks tile the result array.
-/
import proofs.«181866_j24970939859025_1_alg».proof.Proof.KI.Blocks
import proofs.«181866_j24970939859025_1_alg».proof.Proof.KI.Pieces
import proofs.«181866_j24970939859025_1_alg».proof.Proof.Blocked
import Idealize.ShloMosaic.Lib.Pipeline.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Swiglu

variable (m : (ℓ : Loc nD τ sig) → Buf (Elt Ideal) ℓ) (ρ : Dev nD → PrngReg)

/-! ## The accumulator after each point -/

/-- At a reduction step 0 the accumulator is the reset's zeros plus the first slab. -/
private theorem accAt_apply_reset (c : Dev nD) (t : Fin cfg0.N) (h0 : t.val % 11 = 0) (p : Fin 512) (q : Fin 2048)
    (r : Fin 8192) (hr : r.val = 512 * (t.val / 11) + p.val) :
    (accAt m c t.val t.isLt (ix2 p q) : EReal) = partialSum (argX m c) (argW m c) (argD m c) r q (t.val % 11 + 1) := by
  have h10 : ¬t.val % 11 = 10 := by omega
  rw [accAt_A m c t h0 h10, soutA_eq]
  refine (step_apply m c t _ p q r hr).trans ?_
  rw [pay1_apply, h0, partialSum_succ, partialSum_zero]

/-- The running sum, by induction on the point's position: a later step of a token tile adds its slab to
    what the point before left, which is the same token row's running sum one slab shorter. -/
private theorem accAt_apply_aux (c : Dev nD) :
    ∀ (n : ℕ) (t : Fin cfg0.N), t.val = n → ∀ (p : Fin 512) (q : Fin 2048) (r : Fin 8192),
      r.val = 512 * (t.val / 11) + p.val →
      (accAt m c t.val t.isLt (ix2 p q) : EReal) = partialSum (argX m c) (argW m c) (argD m c) r q (t.val % 11 + 1) := by
  intro n
  induction n with
  | zero =>
    intro t ht p q r hr
    exact accAt_apply_reset m c t (by rw [ht]) p q r hr
  | succ n ih =>
    intro t ht p q r hr
    by_cases h0 : t.val % 11 = 0
    · exact accAt_apply_reset m c t h0 p q r hr
    · have hlt : t.val - 1 < cfg0.N := Nat.lt_of_le_of_lt (Nat.sub_le _ _) t.isLt
      have hm : (t.val - 1) % 11 + 1 = t.val % 11 := by omega
      have hprev : (accAt m c (t.val - 1) hlt (ix2 p q) : EReal)
          = partialSum (argX m c) (argW m c) (argD m c) r q ((t.val - 1) % 11 + 1) :=
        ih ⟨t.val - 1, hlt⟩ (by show t.val - 1 = n; omega) p q r (by show r.val = 512 * ((t.val - 1) / 11) + p.val; omega)
      rw [hm] at hprev
      by_cases h10 : t.val % 11 = 10
      · rw [accAt_C m c t h0 h10, soutC_eq]
        refine (step_apply m c t _ p q r hr).trans ?_
        rw [hprev, partialSum_succ]
      · rw [accAt_B m c t h0 h10, soutB_eq]
        refine (step_apply m c t _ p q r hr).trans ?_
        rw [hprev, partialSum_succ]

theorem accAt_apply (c : Dev nD) (t : Fin cfg0.N) (p : Fin 512) (q : Fin 2048) (r : Fin 8192) (hr : r.val = 512 * (t.val / 11) + p.val) :
    (accAt m c t.val t.isLt (ix2 p q) : EReal) = partialSum (argX m c) (argW m c) (argD m c) r q (t.val % 11 + 1) :=
  accAt_apply_aux m c t.val t rfl p q r hr

/-- At a last reduction step the output buffer holds the whole sum. -/
theorem outAt_apply (c : Dev nD) (t : Fin cfg0.N) (h10 : t.val % 11 = 10) (p : Fin 512) (q : Fin 2048) (r : Fin 8192) (hr : r.val = 512 * (t.val / 11) + p.val) :
    (outAt m c t (ix2 p q) : EReal) = G (argX m c) (argW m c) (argD m c) (ix2 r q) := by
  have h0 : ¬t.val % 11 = 0 := by omega
  have hlt : t.val - 1 < cfg0.N := Nat.lt_of_le_of_lt (Nat.sub_le _ _) t.isLt
  have hprev : (accAt m c (t.val - 1) hlt (ix2 p q) : EReal)
      = partialSum (argX m c) (argW m c) (argD m c) r q ((t.val - 1) % 11 + 1) :=
    accAt_apply m c ⟨t.val - 1, hlt⟩ p q r (by show r.val = 512 * ((t.val - 1) / 11) + p.val; omega)
  rw [show (t.val - 1) % 11 + 1 = 10 by omega] at hprev
  rw [outAt_C m c t h0 h10, outC_eq]
  refine (step_apply m c t _ p q r hr).trans ?_
  rw [hprev, h10, G_eq_partialSum]
  exact (partialSum_succ (argX m c) (argW m c) (argD m c) r q 10).symm

/-! ## The result array -/

/-- The output window's block at point `t` is token tile `t / 11`, all the result columns. -/
private theorem out_index : ∀ t : Fin cfg0.N,
    win0_4.index t (0 : Fin 2) = t.val / 11 ∧ win0_4.index t (1 : Fin 2) = 0 :=
  (by decide +kernel : ∀ t : Fin grid0.N, win0_4.index t (0 : Fin 2) = t.val / 11 ∧ win0_4.index t (1 : Fin 2) = 0)

/-- What a last reduction step writes back is its block of the specification: entry `(p, q)` of the
    output block is the whole sum for token row `512·(t/11) + p`, which is where the block's rectangle
    puts that entry in the result array. -/
private theorem flushed_eq (c : Dev nD) (t : Fin cfg0.N) (h10 : t.val % 11 = 10) :
    (dats m 0 c).flushed 4 t
      = ((cfg0.win 4).blk t).view.read (Elt Ideal) (G (argX m c) (argW m c) (argD m c) : (⟨S8192x2048, .f32⟩ : BufTy).Contents (Elt Ideal)) := by
  show (cfg0.win 4).cut (grid0.coords t) ((dats m 0 c).after 4 t) = _
  rw [after0_4]
  obtain ⟨e0, e1⟩ := out_index t
  have hN : cfg0.N = 176 := N_0
  funext y
  obtain ⟨p, q, rfl⟩ : ∃ (p : Fin 512) (q : Fin 2048), y = ix2 p q := ⟨y 0, y 1, eq_ix2 y⟩
  have hr : 512 * (t.val / 11) + p.val < 8192 := by have := t.isLt; have := p.isLt; omega
  show (outAt m c t (ix2 p q) : EReal)
    = G (argX m c) (argW m c) (argD m c) (((cfg0.win 4).blk t).view.emb (ix2 p q))
  rw [outAt_apply m c t h10 p q ⟨512 * (t.val / 11) + p.val, hr⟩ rfl]
  congr 1
  funext a
  apply Fin.ext
  match a with
  | ⟨0, _⟩ =>
    show 512 * (t.val / 11) + p.val = win0_4.index t (0 : Fin 2) * 512 + 1 * p.val
    rw [e0]; omega
  | ⟨1, _⟩ =>
    show q.val = win0_4.index t (1 : Fin 2) * 2048 + 1 * q.val
    rw [e1]; omega

/-- An entry of the result array is in point `t`'s block iff each coordinate is in the block's range. -/
private theorem mem_out_blk (t : Fin cfg0.N) (i : S8192x2048.Idx) :
    i ∈ ((cfg0.win 4).blk t).view.set
      ↔ ∀ a : Fin 2, win0_4.index t a * S512x2048.size a ≤ (i a).val
          ∧ (i a).val < win0_4.index t a * S512x2048.size a + S512x2048.size a := by
  show i ∈ ((View.whole main_v3).slice (win0_4.rect t)).set ↔ _
  rw [View.set_slice_whole, Rect.mem_set_unit]
  exact Iff.rfl

/-- The sixteen written-back blocks tile the result array: row `r` lies in the block of token tile
    `r / 512`, written back at that tile's last reduction step. -/
private theorem covered (i : S8192x2048.Idx) :
    ∃ t : Fin cfg0.N, (cfg0.win 4).flush t = true ∧ i ∈ ((cfg0.win 4).blk t).view.set := by
  have hN : cfg0.N = 176 := N_0
  have hi0 : (i 0).val < 8192 := (i 0).isLt
  have hi1 : (i 1).val < 2048 := (i 1).isLt
  obtain ⟨t, ht⟩ : ∃ t : Fin cfg0.N, t.val = 11 * ((i 0).val / 512) + 10 := ⟨⟨11 * ((i 0).val / 512) + 10, by omega⟩, rfl⟩
  obtain ⟨e0, e1⟩ := out_index t
  refine ⟨t, (flush0_4 t).mpr (by omega), ?_⟩
  rw [mem_out_blk]
  intro a
  match a with
  | ⟨0, _⟩ =>
    show win0_4.index t (0 : Fin 2) * 512 ≤ (i 0).val ∧ (i 0).val < win0_4.index t (0 : Fin 2) * 512 + 512
    rw [e0]; omega
  | ⟨1, _⟩ =>
    show win0_4.index t (1 : Fin 2) * 2048 ≤ (i 1).val ∧ (i 1).val < win0_4.index t (1 : Fin 2) * 2048 + 2048
    rw [e1]; omega

/-- After the last point the result array is the specification of the arguments. -/
theorem final (c : Dev nD) :
    (dats m 0 c).arrAt 4 cfg0.N = (G (argX m c) (argW m c) (argD m c) : (⟨S8192x2048, .f32⟩ : BufTy).Contents (Elt Ideal)) :=
  (dats m 0 c).arrAt_eq_of_cover 4 (G (argX m c) (argW m c) (argD m c))
    (fun t ht => flushed_eq m c t ((flush0_4 t).mp ht)) covered

end Cert.KernelIdeal.Hand

end
-- ==== Proof.KI.Run.lean ====
/-
  The idealized kernel's run with its result named: every weakly fair execution terminates, the result
  array holds the specification of the launch arguments, and the arguments are unchanged.
-/
import proofs.«181866_j24970939859025_1_alg».proof.Proof.KI.Frame
import proofs.«181866_j24970939859025_1_alg».proof.Proof.KI.Value

set_option maxRecDepth 16384

noncomputable section

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Swiglu

variable (m : (ℓ : Loc nD τ sig) → Buf (Elt Ideal) ℓ) (ρ : Dev nD → PrngReg)

theorem run_value : θ_run defs (onTc (τ := τ) (main (F := Ideal))) ⟨m, fun _ => 0, ρ⟩ (fun r => ∀ c : Dev nD,
      r.2.mem ((c.tc : Thread nD τ).loc main_v3) = G (argX m c) (argW m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans (final m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c)⟩)
    (run_main (F := Ideal) m ρ)

end Cert.KernelIdeal.Hand

end
-- ==== Proof.RefValue.lean ====
/-
  The reference program's result, read index by index at the ideal instance: the host program
  forms the stacked projection with one matrix product, slices its gate and up halves, applies
  SiLU as `g · (1 / (1 + exp (-g)))`, multiplies by the up half and contracts with the down weight.
  Entry by entry this is `Cert.Swiglu.G`: the quotient `1 / (1 + exp (-g))` is the logistic function
  on every extended real.
-/
import proofs.«181866_j24970939859025_1_alg».proof.Proof.Gen.ReferenceIdeal.Run
import proofs.«181866_j24970939859025_1_alg».proof.Proof.Gen.ReferenceIdeal.Read
import proofs.«181866_j24970939859025_1_alg».proof.Proof.Spec

noncomputable section

namespace Cert.ReferenceIdeal.RefValue

open Idealize.ShloMosaic Idealize.ShloMosaic.ValueIdx Cert.ReferenceIdeal Cert.ReferenceIdeal.Read Cert.Swiglu

/-- The single-precision word `0x3F800000` denotes the number one. -/
private theorem one_bits : Ideal.ofBits .f32 0x3F800000#32 = (1 : EReal) := by
  simp [Ideal.ofBits, Ideal.ieee, -EReal.coe_mul]; norm_num

/-- The quotient `1 / (1 + exp (-g))`, with both ones given by their words, is the logistic
    function of `g` on every extended real. -/
private theorem quot_eq (g : EReal) :
    FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) g)))
      = Ideal.logistic g := by
  rw [Ideal.ofBits_def, one_bits]
  rfl

/-- The first matrix product at entry `(r, n)` is row `r` of the tokens against column `n` of the
    stacked weight. -/
private theorem prod_eq (x : XArr) (w : WArr) (r : Fin 8192) (n : Fin 11264) :
    val_main_v0 (F := Ideal) x w (ix2 r n) = proj x w r n := by
  rw [val_main_v0_apply]
  unfold proj
  refine Finset.sum_congr rfl fun k _ => ?_
  have el : lidx_main_v0 (ix2 r n) k = ix2 r k :=
    funext fun a => Fin.ext (by match a with | ⟨0, _⟩ => rfl | ⟨1, _⟩ => rfl)
  have er : ridx_main_v0 (ix2 r n) k = ix2 k n :=
    funext fun a => Fin.ext (by match a with | ⟨0, _⟩ => rfl | ⟨1, _⟩ => rfl)
  rw [el, er]

/-- The reference's last stage is the specification. -/
theorem ref_eq (x : XArr) (w : WArr) (d : DArr) :
    val_main_v5 (F := Ideal) x w d = G x w d := by
  funext i
  obtain ⟨r, h, rfl⟩ : ∃ (r : Fin 8192) (h : Fin 2048), i = ix2 r h := ⟨i 0, i 1, eq_ix2 i⟩
  rw [val_main_v5_apply]
  show _ = ∑ n : Fin 5632, term x w d r h n
  refine Finset.sum_congr rfl fun n _ => ?_
  rw [val_main_v4_apply, val_main_v3_apply, val_main_call0_v5_apply, val_main_call0_v4_apply,
    val_main_call0_cst_0_apply, val_main_call0_v3_apply, val_main_call0_v2_apply,
    val_main_call0_cst_apply, val_main_call0_v1_apply, val_main_call0_v0_apply,
    val_main_v1_apply, val_main_v2_apply]
  have e1 : idx_main_v1 (lidx_main_v5 (ix2 r h) n) = ix2 r (gateCol n) :=
    funext fun a => Fin.ext (by match a with | ⟨0, _⟩ => rfl | ⟨1, _⟩ => rfl)
  have e2 : idx_main_v2 (lidx_main_v5 (ix2 r h) n) = ix2 r (upCol n) :=
    funext fun a => Fin.ext (by match a with | ⟨0, _⟩ => rfl | ⟨1, _⟩ => rfl)
  have e3 : ridx_main_v5 (ix2 r h) n = ix2 n h :=
    funext fun a => Fin.ext (by match a with | ⟨0, _⟩ => rfl | ⟨1, _⟩ => rfl)
  rw [e1, e2, e3, prod_eq, prod_eq, quot_eq]
  rfl

end Cert.ReferenceIdeal.RefValue

end
-- ==== Proof.lean ====
/-
  The certificate of a fused SwiGLU expert MLP kernel against its reference.

  The kernel converts its arguments to bf16, then walks a 16 × 11 grid: for each tile of 512 tokens
  it runs over the 5632 hidden columns in 11 slabs of 512, computing for each slab the gate and up
  projections of the tile, SiLU(gate) · up, and that slab's product with the matching rows of the down
  weight, which it adds to an accumulator reset at the first slab and copied to the output at the
  last.  The reference forms the stacked projection with one matrix product, slices it, applies SiLU
  as g · (1 / (1 + exp (-g))) and contracts with the down weight.

  At the ideal instance a change of float format is the identity, the logistic function is that
  quotient on every extended real, and the eleven slabs' sums add up to the whole sum over the
  hidden columns because addition of extended reals is commutative and associative: both programs
  compute, entry by entry, ∑ n < 5632, (g n · logistic (g n) · u n) · d[n, h].  No finiteness of the
  inputs is used.

  The frames: each program terminates without a fault and leaves its arguments unchanged.  The two
  kernel programs' frames are proved from the body's run at each of its three cases (first, middle
  and last reduction step) and the launch of a pipeline two of whose windows read one array; the
  reference's frame is its run with the result dropped.  The idealization rewrote nothing, so the
  preservation claim is trivial.
-/
import proofs.«181866_j24970939859025_1_alg».proof.Defs
import proofs.«181866_j24970939859025_1_alg».proof.Proof.Gen.Kernel
import proofs.«181866_j24970939859025_1_alg».proof.Proof.Gen.KernelIdeal
import proofs.«181866_j24970939859025_1_alg».proof.Proof.Gen.ReferenceIdeal
import proofs.«181866_j24970939859025_1_alg».proof.Proof.Gen.Pre_finite_inputs
import proofs.«181866_j24970939859025_1_alg».proof.Proof.Gen.ReferenceIdeal.Run
import proofs.«181866_j24970939859025_1_alg».proof.Proof.Gen.ReferenceIdeal.Read
import proofs.«181866_j24970939859025_1_alg».proof.Proof.K.Frame
import proofs.«181866_j24970939859025_1_alg».proof.Proof.KI.Run
import proofs.«181866_j24970939859025_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification of the (agreeing) arguments in their result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Swiglu.G (Cert.KernelIdeal.Hand.argX m c) (Cert.KernelIdeal.Hand.argW m c) (Cert.KernelIdeal.Hand.argD m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v5_eq _ _ _).trans (Cert.ReferenceIdeal.RefValue.ref_eq _ _ _)).trans ?_
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
